-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S4x128 : Shape := ⟨2, ![4, 128]⟩
abbrev S4 : Shape := ⟨1, ![4]⟩
abbrev S64x256 : Shape := ⟨2, ![64, 256]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S4x128 .f32) (main_arg3 : FVec F S4 .f32) (main_arg4 : FVec F S64x256 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S4x128 : Shape := ⟨2, ![4, 128]⟩
abbrev S4 : Shape := ⟨1, ![4]⟩
abbrev S64x256 : Shape := ⟨2, ![64, 256]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S800000x65 : Shape := ⟨2, ![800000, 65]⟩
abbrev S4x64 : Shape := ⟨2, ![4, 64]⟩
abbrev S64x4 : Shape := ⟨2, ![64, 4]⟩
abbrev S800000x256 : Shape := ⟨2, ![800000, 256]⟩
abbrev S3200x65 : Shape := ⟨2, ![3200, 65]⟩
abbrev S3200x256 : Shape := ⟨2, ![3200, 256]⟩
abbrev S3200x64 : Shape := ⟨2, ![3200, 64]⟩
abbrev S3200x1 : Shape := ⟨2, ![3200, 1]⟩
abbrev S3200x4 : Shape := ⟨2, ![3200, 4]⟩
abbrev S1x4 : Shape := ⟨2, ![1, 4]⟩
abbrev S3200x4x1 : Shape := ⟨3, ![3200, 4, 1]⟩
abbrev S3200x1x64 : Shape := ⟨3, ![3200, 1, 64]⟩
abbrev S3200x4x64 : Shape := ⟨3, ![3200, 4, 64]⟩
abbrev S800000x4x64 : Shape := ⟨3, ![800000, 4, 64]⟩
abbrev S50000x4x64 : Shape := ⟨3, ![50000, 4, 64]⟩
abbrev S50000x256 : Shape := ⟨2, ![50000, 256]⟩
abbrev S256x64 : Shape := ⟨2, ![256, 64]⟩
abbrev S1000x256 : Shape := ⟨2, ![1000, 256]⟩
abbrev S1000x64 : Shape := ⟨2, ![1000, 64]⟩
abbrev S1x64 : Shape := ⟨2, ![1, 64]⟩

abbrev nBuf : Space → Nat
  | .hbm => 79
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x128, .f32⟩
  | .hbm, ⟨3, _⟩ => ⟨S4, .f32⟩
  | .hbm, ⟨4, _⟩ => ⟨S64x256, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000, .f32⟩
  | .hbm, ⟨59, _⟩ => ⟨S800000x1, .f32⟩
  | .hbm, ⟨60, _⟩ => ⟨S800000x65, .f32⟩
  | .hbm, ⟨61, _⟩ => ⟨S800000x1, .f32⟩
  | .hbm, ⟨62, _⟩ => ⟨S800000x65, .f32⟩
  | .hbm, ⟨63, _⟩ => ⟨S4x64, .f32⟩
  | .hbm, ⟨64, _⟩ => ⟨S64x4, .f32⟩
  | .hbm, ⟨65, _⟩ => ⟨S64x4, .bf16⟩
  | .hbm, ⟨66, _⟩ => ⟨S4x64, .f32⟩
  | .hbm, ⟨67, _⟩ => ⟨S64x4, .f32⟩
  | .hbm, ⟨68, _⟩ => ⟨S64x4, .bf16⟩
  | .hbm, ⟨69, _⟩ => ⟨S800000x256, .f32⟩
  | .hbm, ⟨70, _⟩ => ⟨S800000x4x64, .f32⟩
  | .hbm, ⟨71, _⟩ => ⟨S_, .f32⟩
  | .hbm, ⟨72, _⟩ => ⟨S50000x4x64, .f32⟩
  | .hbm, ⟨73, _⟩ => ⟨S800000x1, .i32⟩
  | .hbm, ⟨74, _⟩ => ⟨S50000x4x64, .f32⟩
  | .hbm, ⟨75, _⟩ => ⟨S50000x256, .f32⟩
  | .hbm, ⟨76, _⟩ => ⟨S256x64, .f32⟩
  | .hbm, ⟨77, _⟩ => ⟨S256x64, .bf16⟩
  | .hbm, ⟨78, _⟩ => ⟨S50000x64, .f32⟩
  | .local _ .vmem, ⟨0, _⟩ => ⟨S3200x65, .f32⟩
  | .local _ .vmem, ⟨1, _⟩ => ⟨S3200x65, .f32⟩
  | .local _ .vmem, ⟨2, _⟩ => ⟨S3200x65, .f32⟩
  | .local _ .vmem, ⟨3, _⟩ => ⟨S3200x65, .f32⟩
  | .local _ .vmem, ⟨4, _⟩ => ⟨S64x4, .bf16⟩
  | .local _ .vmem, ⟨5, _⟩ => ⟨S64x4, .bf16⟩
  | .local _ .vmem, ⟨6, _⟩ => ⟨S4, .f32⟩
  | .local _ .vmem, ⟨7, _⟩ => ⟨S3200x256, .f32⟩
  | .local _ .vmem, ⟨8, _⟩ => ⟨S3200x256, .f32⟩
  | .local _ .vmem, ⟨9, _⟩ => ⟨S1000x256, .f32⟩
  | .local _ .vmem, ⟨10, _⟩ => ⟨S1000x256, .f32⟩
  | .local _ .vmem, ⟨11, _⟩ => ⟨S256x64, .bf16⟩
  | .local _ .vmem, ⟨12, _⟩ => ⟨S64, .f32⟩
  | .local _ .vmem, ⟨13, _⟩ => ⟨S1000x64, .f32⟩
  | .local _ .vmem, ⟨14, _⟩ => ⟨S1000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_8 : Ref sig .tc := ⟨.hbm, 50, rfl⟩
abbrev main_v32 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x65 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  concatenates_S800000x64_S800000x1_S800000x65_d1 : Shape.Concatenates [S800000x64, S800000x1] S800000x65 1
  slices_S4x128_S4x64_0_0 : S4x128.Slices ![0, 0] S4x64
  transposes_S4x64_S64x4_1_0 : S4x64.Transposes [1, 0] S64x4
  bitsLt_bf16_f32 : FTy.bits .bf16 < FTy.bits .f32
  slices_S4x128_S4x64_0_64 : S4x128.Slices ![0, 64] S4x64
  inb_S3200x65_S3200x65_0_0 : ∀ a, (![0, 0] : Fin 2 → Nat) a + S3200x65.size a ≤ S3200x65.size a
  h_S3200x65 : 0 < S3200x65.numel
  shapeCasts_S3200x65_S3200x65 : S3200x65.ShapeCasts S3200x65
  slices_S3200x65_o0_0_S3200x64 : S3200x65.Slices ![0, 0] S3200x64
  slices_S3200x65_o0_64_S3200x1 : S3200x65.Slices ![0, 64] S3200x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S4_S4_0 : ∀ a, (![0] : Fin 1 → Nat) a + S4.size a ≤ S4.size a
  h_S4 : 0 < S4.numel
  shapeCasts_S4_S1x4 : S4.ShapeCasts S1x4
  broadcasts_S1x4_S3200x4 : S1x4.Broadcasts S3200x4
  broadcasts_S3200x1_S3200x4 : S3200x1.Broadcasts S3200x4
  shapeCasts_S3200x4_S3200x4x1 : S3200x4.ShapeCasts S3200x4x1
  shapeCasts_S3200x64_S3200x1x64 : S3200x64.ShapeCasts S3200x1x64
  broadcasts_S3200x4x1_S3200x4x64 : S3200x4x1.Broadcasts S3200x4x64
  broadcasts_S3200x1x64_S3200x4x64 : S3200x1x64.Broadcasts S3200x4x64
  shapeCasts_S3200x4x64_S3200x256 : S3200x4x64.ShapeCasts S3200x256
  inb_S3200x256_S3200x256_0_0 : ∀ a, (![0, 0] : Fin 2 → Nat) a + S3200x256.size a ≤ S3200x256.size a
  h_S3200x256 : 0 < S3200x256.numel
  shapeCasts_S800000x256_S800000x4x64 : S800000x256.ShapeCasts S800000x4x64
  bcast_S_S50000x4x64 : S_.BroadcastsInDim S50000x4x64 (![] : Fin 0 → Fin S50000x4x64.rank)
  shapeCasts_S50000x4x64_S50000x256 : S50000x4x64.ShapeCasts S50000x256
  transposes_S64x256_S256x64_1_0 : S64x256.Transposes [1, 0] S256x64
  inb_S1000x256_S1000x256_0_0 : ∀ a, (![0, 0] : Fin 2 → Nat) a + S1000x256.size a ≤ S1000x256.size a
  h_S1000x256 : 0 < S1000x256.numel
  shapeCasts_S1000x256_S1000x256 : S1000x256.ShapeCasts S1000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x64_S1000x64_0_0 : ∀ a, (![0, 0] : Fin 2 → Nat) a + S1000x64.size a ≤ S1000x64.size a
  h_S1000x64 : 0 < S1000x64.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  dot_S3200x64_S64x4_S3200x4_1_0_0_1_n_n_wf : DotDims.WF S3200x64 S64x4 S3200x4 [1] [0] [0] [1] [] []
  scatter_S50000x4x64_S800000x1_S800000x4x64_12_0_0_1_wf : ScatterDims.WF S50000x4x64 S800000x1 S800000x4x64 [1, 2] [0] [0] 1
  dot_S1000x256_S256x64_S1000x64_1_0_0_1_n_n_wf : DotDims.WF S1000x256 S256x64 S1000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x65.size a ≤ S800000x65.size a
  hwx0_0 : ∀ i : grid0.Coords, EltTy.bits .f32 = 32 ∨ (Rect.block (s := S800000x65) S3200x65.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x65.size a ≤ S800000x65.size a
  hwx0_1 : ∀ i : grid0.Coords, EltTy.bits .f32 = 32 ∨ (Rect.block (s := S800000x65) S3200x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4.size a ≤ S64x4.size a
  hwx0_2 : ∀ i : grid0.Coords, EltTy.bits .bf16 = 32 ∨ (Rect.block (s := S64x4) S64x4.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .bf16 = 32 ∨ (Rect.block (s := S64x4) S64x4.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x256.size a ≤ S800000x256.size a
  hwx0_5 : ∀ i : grid0.Coords, EltTy.bits .f32 = 32 ∨ (Rect.block (s := S800000x256) S3200x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S50000x256.size a
  hwx1_0 : ∀ i : grid1.Coords, EltTy.bits .f32 = 32 ∨ (Rect.block (s := S50000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x64.size a ≤ S256x64.size a
  hwx1_1 : ∀ i : grid1.Coords, EltTy.bits .bf16 = 32 ∨ (Rect.block (s := S256x64) S256x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x64.size a ≤ S50000x64.size a
  hwx1_3 : ∀ i : grid1.Coords, EltTy.bits .f32 = 32 ∨ (Rect.block (s := S50000x64) S1000x64.size (cc1_transform_3 i) (hinb1_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S3200x64_S64x4_S3200x4_1_0_0_1_n_n : DotDims S3200x64 S64x4 S3200x4 where
  lhsContracting := [1]
  rhsContracting := [0]
  lhsNonContracting := [0]
  rhsNonContracting := [1]
  lhsBatch := []
  rhsBatch := []
  wf := dot_S3200x64_S64x4_S3200x4_1_0_0_1_n_n_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf

abbrev win0_0 : Pipeline.Window sig grid0 :=
  Pipeline.Window.ofSpec (Memref.whole main_v40) S3200x65.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S3200x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v45) S64x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v49) S3200x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S256x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S4x128 : Shape := ⟨2, ![4, 128]⟩
abbrev S4 : Shape := ⟨1, ![4]⟩
abbrev S64x256 : Shape := ⟨2, ![64, 256]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S4x64 : Shape := ⟨2, ![4, 64]⟩
abbrev S64x4 : Shape := ⟨2, ![64, 4]⟩
abbrev S800000x4 : Shape := ⟨2, ![800000, 4]⟩
abbrev S1x4 : Shape := ⟨2, ![1, 4]⟩
abbrev S800000x4x1 : Shape := ⟨3, ![800000, 4, 1]⟩
abbrev S800000x1x64 : Shape := ⟨3, ![800000, 1, 64]⟩
abbrev S800000x4x64 : Shape := ⟨3, ![800000, 4, 64]⟩
abbrev S50000x4x64 : Shape := ⟨3, ![50000, 4, 64]⟩
abbrev S50000x256 : Shape := ⟨2, ![50000, 256]⟩
abbrev S256x64 : Shape := ⟨2, ![256, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S4x128, .f32⟩
  | .hbm, ⟨3, _⟩ => ⟨S4, .f32⟩
  | .hbm, ⟨4, _⟩ => ⟨S64x256, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x64, .f32⟩
  | .hbm, ⟨41, _⟩ => ⟨S4x64, .f32⟩
  | .hbm, ⟨42, _⟩ => ⟨S4x64, .f32⟩
  | .hbm, ⟨43, _⟩ => ⟨S64x4, .f32⟩
  | .hbm, ⟨44, _⟩ => ⟨S800000x4, .f32⟩
  | .hbm, ⟨45, _⟩ => ⟨S64x4, .f32⟩
  | .hbm, ⟨46, _⟩ => ⟨S800000x4, .f32⟩
  | .hbm, ⟨47, _⟩ => ⟨S800000x4, .f32⟩
  | .hbm, ⟨48, _⟩ => ⟨S1x4, .f32⟩
  | .hbm, ⟨49, _⟩ => ⟨S800000x4, .f32⟩
  | .hbm, ⟨50, _⟩ => ⟨S800000x4, .f32⟩
  | .hbm, ⟨51, _⟩ => ⟨S800000x4, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000, .f32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000, .f32⟩
  | .hbm, ⟨70, _⟩ => ⟨S800000, .f32⟩
  | .hbm, ⟨71, _⟩ => ⟨S800000x1, .f32⟩
  | .hbm, ⟨72, _⟩ => ⟨S800000x4, .f32⟩
  | .hbm, ⟨73, _⟩ => ⟨S800000x4, .f32⟩
  | .hbm, ⟨74, _⟩ => ⟨S800000x4x1, .f32⟩
  | .hbm, ⟨75, _⟩ => ⟨S800000x1x64, .f32⟩
  | .hbm, ⟨76, _⟩ => ⟨S800000x4x64, .f32⟩
  | .hbm, ⟨77, _⟩ => ⟨S800000x4x64, .f32⟩
  | .hbm, ⟨78, _⟩ => ⟨S800000x4x64, .f32⟩
  | .hbm, ⟨79, _⟩ => ⟨S_, .f32⟩
  | .hbm, ⟨80, _⟩ => ⟨S50000x4x64, .f32⟩
  | .hbm, ⟨81, _⟩ => ⟨S800000x1, .i32⟩
  | .hbm, ⟨82, _⟩ => ⟨S50000x4x64, .f32⟩
  | .hbm, ⟨83, _⟩ => ⟨S50000x256, .f32⟩
  | .hbm, ⟨84, _⟩ => ⟨S256x64, .f32⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_call1_cst : Ref sig .tc := ⟨.hbm, 89, rfl⟩
abbrev main_call1_v0 : Ref sig .tc := ⟨.hbm, 90, rfl⟩
abbrev main_v68 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128_S4x64_0_0 : S4x128.Slices ![0, 0] S4x64
  slices_S4x128_S4x64_0_64 : S4x128.Slices ![0, 64] S4x64
  transposes_S4x64_S64x4_1_0 : S4x64.Transposes [1, 0] S64x4
  bcast_S4_S1x4_1 : S4.BroadcastsInDim S1x4 (![1] : Fin 1 → Fin S1x4.rank)
  bcast_S1x4_S800000x4_0_1 : S1x4.BroadcastsInDim S800000x4 (![0, 1] : Fin 2 → Fin S800000x4.rank)
  bcast_S800000x1_S800000x4_0_1 : S800000x1.BroadcastsInDim S800000x4 (![0, 1] : Fin 2 → Fin S800000x4.rank)
  bcast_S800000x4_S800000x4x1_0_1 : S800000x4.BroadcastsInDim S800000x4x1 (![0, 1] : Fin 2 → Fin S800000x4x1.rank)
  bcast_S800000x64_S800000x1x64_0_2 : S800000x64.BroadcastsInDim S800000x1x64 (![0, 2] : Fin 2 → Fin S800000x1x64.rank)
  bcast_S800000x4x1_S800000x4x64_0_1_2 : S800000x4x1.BroadcastsInDim S800000x4x64 (![0, 1, 2] : Fin 3 → Fin S800000x4x64.rank)
  bcast_S800000x1x64_S800000x4x64_0_1_2 : S800000x1x64.BroadcastsInDim S800000x4x64 (![0, 1, 2] : Fin 3 → Fin S800000x4x64.rank)
  bcast_S_S50000x4x64 : S_.BroadcastsInDim S50000x4x64 (![] : Fin 0 → Fin S50000x4x64.rank)
  shapeCasts_S50000x4x64_S50000x256 : S50000x4x64.ShapeCasts S50000x256
  transposes_S64x256_S256x64_1_0 : S64x256.Transposes [1, 0] S256x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  dot_S800000x64_S64x4_S800000x4_1_0_0_1_n_n_wf : DotDims.WF S800000x64 S64x4 S800000x4 [1] [0] [0] [1] [] []
  gather_S50000_S800000x1_S800000_n_0_n_n_0_1_1_wf : GatherDims.WF S50000 S800000x1 S800000 [] [0] [] [0] [] 1 ![1]
  scatter_S50000x4x64_S800000x1_S800000x4x64_12_0_0_1_wf : ScatterDims.WF S50000x4x64 S800000x1 S800000x4x64 [1, 2] [0] [0] 1
  dot_S50000x256_S256x64_S50000x64_1_0_0_1_n_n_wf : DotDims.WF S50000x256 S256x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x4_S800000x4_1_0_0_1_n_n : DotDims S800000x64 S64x4 S800000x4 where
  lhsContracting := [1]
  rhsContracting := [0]
  lhsNonContracting := [0]
  rhsNonContracting := [1]
  lhsBatch := []
  rhsBatch := []
  wf := dot_S800000x64_S64x4_S800000x4_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.RefStages.lean ====
/-
  The reference program's run and its stages, read one operation at a time: this module only gathers the
  two generated modules the value proof is written over.
-/
import proofs.«160312_j13048110645522_1_alg».proof.Proof.Gen.ReferenceIdeal.Run
import proofs.«160312_j13048110645522_1_alg».proof.Proof.Gen.ReferenceIdeal.Read
-- ==== Proof.Spec.lean ====
/-
  The two arrays the program computes, as functions of the arrays they are computed from, index by index over
  the extended reals.

  The message array. `X0` and `X1` are the 65-column arrays of the edges: columns 0 … 63 hold the features of
  the edge's source (in `X0`) and target (in `X1`), column 64 the degree norm of that node. For edge `e`, head
  `h` and feature `d` the message is
      tanh (Σ_k X0[e,k]·W1[k,h] + Σ_k X1[e,k]·W2[k,h] + b[h]) · (X0[e,64]·X1[e,64]) · X0[e,d],
  stored at column `h·64 + d` of row `e`.

  The projection: relu (A·W + b), entry (n, o) being max (Σ_k A[n,k]·W[k,o] + b[o], 0).
-/
import proofs.«160312_j13048110645522_1_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

/-- A feature column of the 65-column edge arrays. -/
def col (k : Fin 64) : Fin 65 := ⟨k.val, Nat.lt_succ_of_lt k.isLt⟩
/-- The column holding the degree norm. -/
def normCol : Fin 65 := ⟨64, by decide⟩

/-- The message of edge `e`, head `h`, feature `d`. -/
def msgAt (X0 X1 : FVec Ideal S800000x65 .f32) (W1 W2 : FVec Ideal S64x4 .bf16) (b : FVec Ideal S4 .f32)
    (e : Fin 800000) (h : Fin 4) (d : Fin 64) : EReal :=
  Ideal.tanh (((∑ k : Fin 64, X0 (ix2 e (col k)) * W1 (ix2 k h))
      + ∑ k : Fin 64, X1 (ix2 e (col k)) * W2 (ix2 k h)) + b (ix1 h))
    * (X0 (ix2 e normCol) * X1 (ix2 e normCol))
    * X0 (ix2 e (col d))

/-- The message array: row `e`, column `h·64 + d`. -/
def messages (X0 X1 : FVec Ideal S800000x65 .f32) (W1 W2 : FVec Ideal S64x4 .bf16) (b : FVec Ideal S4 .f32) :
    FVec Ideal S800000x256 .f32 := fun i =>
  msgAt X0 X1 W1 W2 b ⟨(i 0).val, (i 0).isLt⟩
    ⟨(i 1).val / 64, Nat.div_lt_of_lt_mul (show (i 1).val < 64 * 4 from (i 1).isLt)⟩
    ⟨(i 1).val % 64, Nat.mod_lt _ (by decide)⟩

/-- The message array read at row `e` and column `j = h·64 + d`. -/
theorem messages_apply (X0 X1 : FVec Ideal S800000x65 .f32) (W1 W2 : FVec Ideal S64x4 .bf16) (b : FVec Ideal S4 .f32)
    (e : Fin 800000) (h : Fin 4) (d : Fin 64) (j : Fin 256) (hj : j.val = h.val * 64 + d.val) :
    messages X0 X1 W1 W2 b (ix2 e j) = msgAt X0 X1 W1 W2 b e h d := by
  have hd := d.isLt
  have e1 : (⟨j.val / 64, Nat.div_lt_of_lt_mul (show j.val < 64 * 4 from j.isLt)⟩ : Fin 4) = h := Fin.ext (by show j.val / 64 = h.val; omega)
  have e2 : (⟨j.val % 64, Nat.mod_lt _ (by decide)⟩ : Fin 64) = d := Fin.ext (by show j.val % 64 = d.val; omega)
  show msgAt X0 X1 W1 W2 b ⟨e.val, e.isLt⟩ ⟨j.val / 64, _⟩ ⟨j.val % 64, _⟩ = _
  rw [e1, e2]

/-- Entry (n, o) of relu (A·W + b). -/
def projAt (A : FVec Ideal S50000x256 .f32) (W : FVec Ideal S256x64 .bf16) (b : FVec Ideal S64 .f32)
    (n : Fin 50000) (o : Fin 64) : EReal :=
  max ((∑ k : Fin 256, A (ix2 n k) * W (ix2 k o)) + b (ix1 o)) (FloatOps.ofBits (F := Ideal) .f32 0x00000000#32)

/-- relu (A·W + b). -/
def projection (A : FVec Ideal S50000x256 .f32) (W : FVec Ideal S256x64 .bf16) (b : FVec Ideal S64 .f32) :
    FVec Ideal S50000x64 .f32 := fun i =>
  projAt A W b ⟨(i 0).val, (i 0).isLt⟩ ⟨(i 1).val, (i 1).isLt⟩

theorem projection_apply (A : FVec Ideal S50000x256 .f32) (W : FVec Ideal S256x64 .bf16) (b : FVec Ideal S64 .f32)
    (n : Fin 50000) (o : Fin 64) : projection A W b (ix2 n o) = projAt A W b n o := rfl

end Cert.KernelIdeal.Spec

end
-- ==== Proof.MessageArray.lean ====
/-
  The first kernel region's output array after its run: the message array of Spec.lean, as a function of the
  five arrays the region reads.
-/
import proofs.«160312_j13048110645522_1_alg».proof.Proof.Gen.KernelIdeal.Frame
import proofs.«160312_j13048110645522_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.MessageArray

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's layout operations, read at explicit coordinates -/

/-- Column `k` of the 64-column slice of a 65-column block is the block's feature column `k`. -/
theorem featureSlice_apply (x : FVec Ideal S3200x65 .f32) (hs : S3200x65.Slices ![0, 0] S3200x64)
    (r : Fin 3200) (k : Fin 64) :
    extractStridedSlice S3200x64 ![0, 0] x hs (ix2 r k) = x (ix2 r (Spec.col k)) :=
  extractStridedSlice_apply ![0, 0] x hs (ix2 r k) (ix2 r (Spec.col k)) fun a => by
    match a with
    | ⟨0, _⟩ => show r.val = 0 + r.val; omega
    | ⟨1, _⟩ => show k.val = 0 + k.val; omega

/-- The one column of the slice at offset 64 is the block's degree-norm column. -/
theorem normSlice_apply (x : FVec Ideal S3200x65 .f32) (hs : S3200x65.Slices ![0, 64] S3200x1)
    (r : Fin 3200) (z : Fin 1) :
    extractStridedSlice S3200x1 ![0, 64] x hs (ix2 r z) = x (ix2 r Spec.normCol) :=
  extractStridedSlice_apply ![0, 64] x hs (ix2 r z) (ix2 r Spec.normCol) fun a => by
    match a with
    | ⟨0, _⟩ => show r.val = 0 + r.val; omega
    | ⟨1, _⟩ => show 64 = 64 + z.val; omega

/-- The bias vector, viewed as one row and repeated over the rows, reads its entry `h` at `(r, h)`. -/
theorem biasRows_apply (b : FVec Ideal S4 .f32) (hc : S4.ShapeCasts S1x4) (hb : S1x4.Broadcasts S3200x4)
    (r : Fin 3200) (h : Fin 4) :
    broadcastTo S3200x4 (shapeCast S1x4 b hc) hb (ix2 r h) = b (ix1 h) :=
  (broadcastTo_1b_ab_apply (shapeCast S1x4 b hc) hb r h).trans (shapeCast_a_1a_apply b hc 0 h)

/-- A one-column array repeated over four columns reads its row's entry. -/
theorem columnOverHeads_apply (v : FVec Ideal S3200x1 .f32) (hb : S3200x1.Broadcasts S3200x4)
    (r : Fin 3200) (h : Fin 4) :
    broadcastTo S3200x4 v hb (ix2 r h) = v (ix2 r (0 : Fin 1)) :=
  broadcastTo_apply v hb (ix2 r h) (ix2 r (0 : Fin 1)) fun a => by
    match a with
    | ⟨0, _⟩ => rfl
    | ⟨1, _⟩ => rfl

/-- `[3200, 4]` viewed as `[3200, 4, 1]`: entry `(r, h, 0)` is entry `(r, h)`. -/
theorem headsAsColumn_apply (v : FVec Ideal S3200x4 .f32) (hc : S3200x4.ShapeCasts S3200x4x1)
    (r : Fin 3200) (h : Fin 4) (z : Fin 1) :
    shapeCast S3200x4x1 v hc (ix3 r h z) = v (ix2 r h) :=
  shapeCast_apply v hc _ _ (by
    have hz : z.val = 0 := by omega
    rw [Shape.rowMajor_val_three, Shape.rowMajor_val_two]
    show r.val * 4 + h.val = (r.val * 4 + h.val) * 1 + z.val
    omega)

/-- `[3200, 64]` viewed as `[3200, 1, 64]`: entry `(r, 0, d)` is entry `(r, d)`. -/
theorem featuresAsRow_apply (v : FVec Ideal S3200x64 .f32) (hc : S3200x64.ShapeCasts S3200x1x64)
    (r : Fin 3200) (z : Fin 1) (d : Fin 64) :
    shapeCast S3200x1x64 v hc (ix3 r z d) = v (ix2 r d) :=
  shapeCast_apply v hc _ _ (by
    have hz : z.val = 0 := by omega
    rw [Shape.rowMajor_val_three, Shape.rowMajor_val_two]
    show r.val * 64 + d.val = (r.val * 1 + z.val) * 64 + d.val
    omega)

/-- `[3200, 4, 1]` repeated along the last axis reads `(r, h, 0)` at `(r, h, d)`. -/
theorem overFeatures_apply (v : FVec Ideal S3200x4x1 .f32) (hb : S3200x4x1.Broadcasts S3200x4x64)
    (r : Fin 3200) (h : Fin 4) (d : Fin 64) :
    broadcastTo S3200x4x64 v hb (ix3 r h d) = v (ix3 r h (0 : Fin 1)) :=
  broadcastTo_apply v hb (ix3 r h d) (ix3 r h (0 : Fin 1)) fun a => by
    match a with
    | ⟨0, _⟩ => rfl
    | ⟨1, _⟩ => rfl
    | ⟨2, _⟩ => rfl

/-- `[3200, 1, 64]` repeated along the middle axis reads `(r, 0, d)` at `(r, h, d)`. -/
theorem overHeads_apply (v : FVec Ideal S3200x1x64 .f32) (hb : S3200x1x64.Broadcasts S3200x4x64)
    (r : Fin 3200) (h : Fin 4) (d : Fin 64) :
    broadcastTo S3200x4x64 v hb (ix3 r h d) = v (ix3 r (0 : Fin 1) d) :=
  broadcastTo_apply v hb (ix3 r h d) (ix3 r (0 : Fin 1) d) fun a => by
    match a with
    | ⟨0, _⟩ => rfl
    | ⟨1, _⟩ => rfl
    | ⟨2, _⟩ => rfl

/-- `[3200, 4, 64]` flattened to `[3200, 256]`: column `h·64 + d` of row `r` is entry `(r, h, d)`. -/
theorem flatten_apply (v : FVec Ideal S3200x4x64 .f32) (hc : S3200x4x64.ShapeCasts S3200x256)
    (r : Fin 3200) (h : Fin 4) (d : Fin 64) (j : Fin 256) (hj : j.val = h.val * 64 + d.val) :
    shapeCast S3200x256 v hc (ix2 r j) = v (ix3 r h d) :=
  shapeCast_apply v hc _ _ (by
    rw [Shape.rowMajor_val_three, Shape.rowMajor_val_two]
    show (r.val * 4 + h.val) * 64 + d.val = r.val * 256 + j.val
    omega)

/-! ## The body's matrix products, read as sums over the 64 features -/

theorem gate_lhs_0 (i : S3200x4.Idx) (q : dot_S3200x64_S64x4_S3200x4_1_0_0_1_n_n.contr.Idx) :
    (dot_S3200x64_S64x4_S3200x4_1_0_0_1_n_n.lhsIdx i q 0).val = (i 0).val := by
  unfold DotDims.lhsIdx
  rw [dif_neg (show ¬(0 : Fin S3200x64.rank) ∈ dot_S3200x64_S64x4_S3200x4_1_0_0_1_n_n.lhsBatch by decide), dif_pos (show (0 : Fin S3200x64.rank) ∈ dot_S3200x64_S64x4_S3200x4_1_0_0_1_n_n.lhsNonContracting by decide)]
  rfl
theorem gate_lhs_1 (i : S3200x4.Idx) (q : dot_S3200x64_S64x4_S3200x4_1_0_0_1_n_n.contr.Idx) :
    (dot_S3200x64_S64x4_S3200x4_1_0_0_1_n_n.lhsIdx i q 1).val = (q ⟨0, by decide⟩).val :=
  dot_S3200x64_S64x4_S3200x4_1_0_0_1_n_n.lhsIdx_val_of_single rfl i q
theorem gate_rhs_0 (i : S3200x4.Idx) (q : dot_S3200x64_S64x4_S3200x4_1_0_0_1_n_n.contr.Idx) :
    (dot_S3200x64_S64x4_S3200x4_1_0_0_1_n_n.rhsIdx i q 0).val = (q ⟨0, by decide⟩).val :=
  dot_S3200x64_S64x4_S3200x4_1_0_0_1_n_n.rhsIdx_val_of_single rfl i q
theorem gate_rhs_1 (i : S3200x4.Idx) (q : dot_S3200x64_S64x4_S3200x4_1_0_0_1_n_n.contr.Idx) :
    (dot_S3200x64_S64x4_S3200x4_1_0_0_1_n_n.rhsIdx i q 1).val = (i 1).val := by
  unfold DotDims.rhsIdx
  rw [dif_neg (show ¬(1 : Fin S64x4.rank) ∈ dot_S3200x64_S64x4_S3200x4_1_0_0_1_n_n.rhsBatch by decide), dif_pos (show (1 : Fin S64x4.rank) ∈ dot_S3200x64_S64x4_S3200x4_1_0_0_1_n_n.rhsNonContracting by decide)]
  rfl

/-- The product of a `[3200, 64]` block with a `[64, 4]` weight into a zero accumulator: entry `(r, h)` is
    the sum over the features `k` of `a[r, k] · w[k, h]`. -/
theorem gateMatmul_apply (a : FVec Ideal S3200x64 .bf16) (w : FVec Ideal S64x4 .bf16) (r : Fin 3200) (h : Fin 4) :
    matmul dot_S3200x64_S64x4_S3200x4_1_0_0_1_n_n none a w (constant S3200x4 .f32 0x00000000#32) (ix2 r h)
      = ∑ k : Fin 64, a (ix2 r k) * w (ix2 k h) := by
  refine (Ideal.matmul_constant_zero_apply dot_S3200x64_S64x4_S3200x4_1_0_0_1_n_n none a w (ix2 r h)).trans ?_
  rw [← Equiv.sum_comp (contrEquiv1 dot_S3200x64_S64x4_S3200x4_1_0_0_1_n_n 64 rfl rfl).symm]
  refine Finset.sum_congr rfl fun k _ => ?_
  have hk := contrEquiv1_symm_val dot_S3200x64_S64x4_S3200x4_1_0_0_1_n_n 64 rfl rfl k
  have el : dot_S3200x64_S64x4_S3200x4_1_0_0_1_n_n.lhsIdx (ix2 r h) ((contrEquiv1 dot_S3200x64_S64x4_S3200x4_1_0_0_1_n_n 64 rfl rfl).symm k) = ix2 r k := funext fun a => Fin.ext (by
    match a with
    | ⟨0, _⟩ => exact gate_lhs_0 _ _
    | ⟨1, _⟩ => exact (gate_lhs_1 _ _).trans hk)
  have er : dot_S3200x64_S64x4_S3200x4_1_0_0_1_n_n.rhsIdx (ix2 r h) ((contrEquiv1 dot_S3200x64_S64x4_S3200x4_1_0_0_1_n_n 64 rfl rfl).symm k) = ix2 k h := funext fun a => Fin.ext (by
    match a with
    | ⟨0, _⟩ => exact (gate_rhs_0 _ _).trans hk
    | ⟨1, _⟩ => exact gate_rhs_1 _ _)
  rw [el, er]

/-! ## The body's payload at an index -/

/-- A hyperbolic tangent at an index is the tangent of the element. -/
theorem tanh_apply {s : Shape} {φ : FTy} (a : FVec Ideal s φ) (i : s.Idx) : tanh a i = Ideal.tanh (a i) := rfl

/-- What the body stores, at row `r` and column `j = h·64 + d` of its block: the message of that row, head and
    feature, computed from the two 65-column blocks, the two weights and the bias. -/
theorem payload_apply (x0 x1 : Vec Ideal S3200x65 .f32) (w1 w2 : Vec Ideal S64x4 .bf16) (b : Vec Ideal S4 .f32)
    (r : Fin 3200) (h : Fin 4) (d : Fin 64) (j : Fin 256) (hj : j.val = h.val * 64 + d.val) :
    k0_pay1 (F := Ideal) x0 x1 w1 w2 b (ix2 r j)
      = Ideal.tanh (((∑ k : Fin 64, x0 (ix2 r (Spec.col k)) * w1 (ix2 k h))
            + ∑ k : Fin 64, x1 (ix2 r (Spec.col k)) * w2 (ix2 k h)) + b (ix1 h))
          * (x0 (ix2 r Spec.normCol) * x1 (ix2 r Spec.normCol))
          * x0 (ix2 r (Spec.col d)) := by
  unfold k0_pay1
  simp only [shapeCast_self, flatten_apply _ _ r h d j hj, mulf_apply, addf_apply, tanh_apply, truncf_apply,
    overFeatures_apply, headsAsColumn_apply, overHeads_apply, featuresAsRow_apply, columnOverHeads_apply,
    biasRows_apply, gateMatmul_apply, normSlice_apply, featureSlice_apply]

/-! ## From the blocks to the array -/

theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: point `t` takes row block `t` of the two edge arrays and of the output, and the
    one block of each weight and of the bias. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row `r` of the source-edge block at point `t` is row `3200·t + r` of the source-edge array. -/
theorem srcBlock_apply (c : Dev nD) (t : Fin cfg0.N) (r : Fin 3200) (q : Fin 65) (e : Fin 800000)
    (he : e.val = t.val * 3200 + r.val) :
    (iblk0 V c 0 t : Vec Ideal S3200x65 .f32) (ix2 r q) = (V c main_v40 : FVec Ideal S800000x65 .f32) (ix2 e q) := by
  obtain ⟨e0, e1, -⟩ := index_facts t
  show V c main_v40 (((cfg0.win 0).blk t).view.emb (ix2 r q)) = V c main_v40 (ix2 e q)
  refine congrArg _ (funext fun a => Fin.ext ?_)
  match a with
  | ⟨0, _⟩ => show win0_0.index t (0 : Fin 2) * 3200 + 1 * r.val = e.val; omega
  | ⟨1, _⟩ => show win0_0.index t (1 : Fin 2) * 65 + 1 * q.val = q.val; omega

/-- Row `r` of the target-edge block at point `t` is row `3200·t + r` of the target-edge array. -/
theorem dstBlock_apply (c : Dev nD) (t : Fin cfg0.N) (r : Fin 3200) (q : Fin 65) (e : Fin 800000)
    (he : e.val = t.val * 3200 + r.val) :
    (iblk0 V c 1 t : Vec Ideal S3200x65 .f32) (ix2 r q) = (V c main_v42 : FVec Ideal S800000x65 .f32) (ix2 e q) := by
  obtain ⟨-, -, e0, e1, -⟩ := index_facts t
  show V c main_v42 (((cfg0.win 1).blk t).view.emb (ix2 r q)) = V c main_v42 (ix2 e q)
  refine congrArg _ (funext fun a => Fin.ext ?_)
  match a with
  | ⟨0, _⟩ => show win0_1.index t (0 : Fin 2) * 3200 + 1 * r.val = e.val; omega
  | ⟨1, _⟩ => show win0_1.index t (1 : Fin 2) * 65 + 1 * q.val = q.val; omega

/-- The first weight's block at any point is the whole weight. -/
theorem weight1Block_apply (c : Dev nD) (t : Fin cfg0.N) (k : Fin 64) (h : Fin 4) :
    (iblk0 V c 2 t : Vec Ideal S64x4 .bf16) (ix2 k h) = (V c main_v45 : FVec Ideal S64x4 .bf16) (ix2 k h) := by
  obtain ⟨-, -, -, -, e0, e1, -⟩ := index_facts t
  show V c main_v45 (((cfg0.win 2).blk t).view.emb (ix2 k h)) = V c main_v45 (ix2 k h)
  refine congrArg _ (funext fun a => Fin.ext ?_)
  match a with
  | ⟨0, _⟩ => show win0_2.index t (0 : Fin 2) * 64 + 1 * k.val = k.val; omega
  | ⟨1, _⟩ => show win0_2.index t (1 : Fin 2) * 4 + 1 * h.val = h.val; omega

/-- The second weight's block at any point is the whole weight. -/
theorem weight2Block_apply (c : Dev nD) (t : Fin cfg0.N) (k : Fin 64) (h : Fin 4) :
    (iblk0 V c 3 t : Vec Ideal S64x4 .bf16) (ix2 k h) = (V c main_v48 : FVec Ideal S64x4 .bf16) (ix2 k h) := by
  obtain ⟨-, -, -, -, -, -, e0, e1, -⟩ := index_facts t
  show V c main_v48 (((cfg0.win 3).blk t).view.emb (ix2 k h)) = V c main_v48 (ix2 k h)
  refine congrArg _ (funext fun a => Fin.ext ?_)
  match a with
  | ⟨0, _⟩ => show win0_3.index t (0 : Fin 2) * 64 + 1 * k.val = k.val; omega
  | ⟨1, _⟩ => show win0_3.index t (1 : Fin 2) * 4 + 1 * h.val = h.val; omega

/-- The bias's block at any point is the whole bias. -/
theorem biasBlock_apply (c : Dev nD) (t : Fin cfg0.N) (h : Fin 4) :
    (iblk0 V c 4 t : Vec Ideal S4 .f32) (ix1 h) = (V c main_arg3 : FVec Ideal S4 .f32) (ix1 h) := by
  obtain ⟨-, -, -, -, -, -, -, -, e0, -⟩ := index_facts t
  show V c main_arg3 (((cfg0.win 4).blk t).view.emb (ix1 h)) = V c main_arg3 (ix1 h)
  refine congrArg _ (funext fun a => Fin.ext ?_)
  match a with
  | ⟨0, _⟩ => show win0_4.index t (0 : Fin 1) * 4 + 1 * h.val = h.val; omega

/-- What point `t` writes back is block `t` of the message array of the arrays the region reads. -/
theorem flushed_eq (c : Dev nD) (t : Fin cfg0.N) :
    (dat0 (F := Ideal) V c).flushed 5 t
      = ((cfg0.win 5).blk t).view.read (Elt Ideal)
          (Spec.messages (V c main_v40) (V c main_v42) (V c main_v45) (V c main_v48) (V c main_arg3)) := by
  show (cfg0.win 5).cut (grid0.coords t) ((dat0 V c).after 5 t) = _
  rw [after0_5]
  unfold out0_5
  rw [View.canon_unit_zero zeros2]
  simp only [View.ld_unit_zero (S := S3200x65) zeros2, View.ld_unit_zero (S := S64x4) zeros2,
    View.ld_unit_zero (S := S4) zeros1]
  refine funext fun (y : S3200x256.Idx) => ?_
  obtain ⟨r, j, rfl⟩ : ∃ (r : Fin 3200) (j : Fin 256), y = ix2 r j := ⟨y 0, y 1, eq_ix2 y⟩
  have hN : grid0.N = 250 := N_0
  have ht : t.val < 250 := hN ▸ t.isLt
  have hjlt : j.val < 256 := j.isLt
  obtain ⟨h, hh⟩ : ∃ h : Fin 4, h.val = j.val / 64 := ⟨⟨j.val / 64, by omega⟩, rfl⟩
  obtain ⟨d, hd⟩ : ∃ d : Fin 64, d.val = j.val % 64 := ⟨⟨j.val % 64, by omega⟩, rfl⟩
  obtain ⟨e, he⟩ : ∃ e : Fin 800000, e.val = t.val * 3200 + r.val := ⟨⟨t.val * 3200 + r.val, by omega⟩, rfl⟩
  have hj : j.val = h.val * 64 + d.val := by omega
  obtain ⟨-, -, -, -, -, -, -, -, -, i0, i1⟩ := index_facts t
  have hemb : ((cfg0.win 5).blk t).view.emb (ix2 r j) = (ix2 e j : S800000x256.Idx) := by
    refine funext fun a => Fin.ext ?_
    match a with
    | ⟨0, _⟩ => show win0_5.index t (0 : Fin 2) * 3200 + 1 * r.val = e.val; omega
    | ⟨1, _⟩ => show win0_5.index t (1 : Fin 2) * 256 + 1 * j.val = j.val; omega
  show k0_pay1 (F := Ideal) (iblk0 V c 0 t) (iblk0 V c 1 t) (iblk0 V c 2 t) (iblk0 V c 3 t) (iblk0 V c 4 t) (ix2 r j)
      = Spec.messages (V c main_v40) (V c main_v42) (V c main_v45) (V c main_v48) (V c main_arg3)
          (((cfg0.win 5).blk t).view.emb (ix2 r j))
  rw [hemb, Spec.messages_apply _ _ _ _ _ e h d j hj]
  refine (payload_apply _ _ _ _ _ r h d j hj).trans ?_
  unfold Spec.msgAt
  simp only [srcBlock_apply V c t r _ e he, dstBlock_apply V c t r _ e he, weight1Block_apply V c t,
    weight2Block_apply V c t, biasBlock_apply V c t]

/-- An index of the output array is in point `t`'s block iff each coordinate is in the block's range on its axis. -/
theorem mem_block (t : Fin cfg0.N) (i : S800000x256.Idx) :
    i ∈ ((cfg0.win 5).blk t).view.set ↔ ∀ a : Fin 2, win0_5.index t a * S3200x256.size a ≤ (i a).val ∧ (i a).val < win0_5.index t a * S3200x256.size a + S3200x256.size a := by
  show i ∈ ((View.whole main_v49).slice (win0_5.rect t)).set ↔ _
  rw [View.set_slice_whole, Rect.mem_set_unit]
  exact Iff.rfl

/-- Every row of the output array lies in the block of the point `row / 3200`, which writes it back. -/
theorem covered (i : S800000x256.Idx) :
    ∃ t : Fin cfg0.N, (cfg0.win 5).flush t = true ∧ i ∈ ((cfg0.win 5).blk t).view.set := by
  have hi0 : (i 0).val < 800000 := (i 0).isLt
  have hi1 : (i 1).val < 256 := (i 1).isLt
  have hN : grid0.N = 250 := N_0
  obtain ⟨t, ht⟩ : ∃ t : Fin cfg0.N, t.val = (i 0).val / 3200 :=
    ⟨⟨(i 0).val / 3200, by show (i 0).val / 3200 < grid0.N; rw [hN]; omega⟩, rfl⟩
  obtain ⟨-, -, -, -, -, -, -, -, -, i0, i1⟩ := index_facts t
  refine ⟨t, flush0_5 t, ?_⟩
  rw [mem_block]
  intro a
  match a with
  | ⟨0, _⟩ => show win0_5.index t (0 : Fin 2) * 3200 ≤ (i 0).val ∧ (i 0).val < win0_5.index t (0 : Fin 2) * 3200 + 3200; omega
  | ⟨1, _⟩ => show win0_5.index t (1 : Fin 2) * 256 ≤ (i 1).val ∧ (i 1).val < win0_5.index t (1 : Fin 2) * 256 + 256; omega

/-- After the region's 250 grid points the output array holds the message array of the arrays the region read. -/
theorem final (c : Dev nD) :
    (dat0 (F := Ideal) V c).arrAt 5 cfg0.N
      = Spec.messages (V c main_v40) (V c main_v42) (V c main_v45) (V c main_v48) (V c main_arg3) :=
  (dat0 (F := Ideal) V c).arrAt_eq_of_cover 5
    (Spec.messages (V c main_v40) (V c main_v42) (V c main_v45) (V c main_v48) (V c main_arg3))
    (fun t _ => flushed_eq V c t) covered

end Cert.KernelIdeal.MessageArray

end
-- ==== Proof.ProjectionArray.lean ====
/-
  The second kernel region's output array after its run: the projection of Spec.lean, as a function of the
  three arrays the region reads.
-/
import proofs.«160312_j13048110645522_1_alg».proof.Proof.Gen.KernelIdeal.Frame
import proofs.«160312_j13048110645522_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectionArray

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's arithmetic at an entry -/

/-- In the block product the left operand is read at the output's row … -/
theorem lhs_row (i : S1000x64.Idx) (q : dot_S1000x256_S256x64_S1000x64_1_0_0_1_n_n.contr.Idx) :
    (dot_S1000x256_S256x64_S1000x64_1_0_0_1_n_n.lhsIdx i q 0).val = (i 0).val := by
  unfold DotDims.lhsIdx
  rw [dif_neg (show ¬(0 : Fin S1000x256.rank) ∈ dot_S1000x256_S256x64_S1000x64_1_0_0_1_n_n.lhsBatch by decide), dif_pos (show (0 : Fin S1000x256.rank) ∈ dot_S1000x256_S256x64_S1000x64_1_0_0_1_n_n.lhsNonContracting by decide)]
  rfl
/-- … and at the contracted position, -/
theorem lhs_contr (i : S1000x64.Idx) (q : dot_S1000x256_S256x64_S1000x64_1_0_0_1_n_n.contr.Idx) :
    (dot_S1000x256_S256x64_S1000x64_1_0_0_1_n_n.lhsIdx i q 1).val = (q ⟨0, by decide⟩).val :=
  dot_S1000x256_S256x64_S1000x64_1_0_0_1_n_n.lhsIdx_val_of_single rfl i q
/-- the right operand at the contracted position … -/
theorem rhs_contr (i : S1000x64.Idx) (q : dot_S1000x256_S256x64_S1000x64_1_0_0_1_n_n.contr.Idx) :
    (dot_S1000x256_S256x64_S1000x64_1_0_0_1_n_n.rhsIdx i q 0).val = (q ⟨0, by decide⟩).val :=
  dot_S1000x256_S256x64_S1000x64_1_0_0_1_n_n.rhsIdx_val_of_single rfl i q
/-- … and at the output's column. -/
theorem rhs_col (i : S1000x64.Idx) (q : dot_S1000x256_S256x64_S1000x64_1_0_0_1_n_n.contr.Idx) :
    (dot_S1000x256_S256x64_S1000x64_1_0_0_1_n_n.rhsIdx i q 1).val = (i 1).val := by
  unfold DotDims.rhsIdx
  rw [dif_neg (show ¬(1 : Fin S256x64.rank) ∈ dot_S1000x256_S256x64_S1000x64_1_0_0_1_n_n.rhsBatch by decide), dif_pos (show (1 : Fin S256x64.rank) ∈ dot_S1000x256_S256x64_S1000x64_1_0_0_1_n_n.rhsNonContracting by decide)]
  rfl

/-- The block product into a zero accumulator, at row `r` and column `o`: the sum over the 256 contracted positions
    of the products of the operands' entries. -/
theorem product_apply (x : FVec Ideal S1000x256 .bf16) (w : FVec Ideal S256x64 .bf16) (r : Fin 1000) (o : Fin 64) :
    matmul dot_S1000x256_S256x64_S1000x64_1_0_0_1_n_n none x w (constant S1000x64 .f32 0x00000000#32) (ix2 r o)
      = ∑ k : Fin 256, x (ix2 r k) * w (ix2 k o) := by
  simp only [matmul]
  rw [Ideal.matmul_constant_zero_apply, ← Equiv.sum_comp (ValueIdx.contrEquiv1 dot_S1000x256_S256x64_S1000x64_1_0_0_1_n_n 256 rfl rfl).symm]
  refine Finset.sum_congr rfl fun k _ => ?_
  have hk := ValueIdx.contrEquiv1_symm_val dot_S1000x256_S256x64_S1000x64_1_0_0_1_n_n 256 rfl rfl k
  have el : dot_S1000x256_S256x64_S1000x64_1_0_0_1_n_n.lhsIdx (ix2 r o) ((ValueIdx.contrEquiv1 dot_S1000x256_S256x64_S1000x64_1_0_0_1_n_n 256 rfl rfl).symm k) = ix2 r k := funext fun a => Fin.ext (by
    match a with
    | ⟨0, _⟩ => exact lhs_row _ _
    | ⟨1, _⟩ => exact (lhs_contr _ _).trans hk)
  have er : dot_S1000x256_S256x64_S1000x64_1_0_0_1_n_n.rhsIdx (ix2 r o) ((ValueIdx.contrEquiv1 dot_S1000x256_S256x64_S1000x64_1_0_0_1_n_n 256 rfl rfl).symm k) = ix2 k o := funext fun a => Fin.ext (by
    match a with
    | ⟨0, _⟩ => exact (rhs_contr _ _).trans hk
    | ⟨1, _⟩ => exact rhs_col _ _)
  rw [el, er]

/-- The bias row spread over the block's rows, at row `r` and column `o`, is the bias at `o`. -/
theorem bias_apply (b : FVec Ideal S64 .f32) (r : Fin 1000) (o : Fin 64) :
    broadcastTo S1000x64 (shapeCast S1x64 b shapeCasts_S64_S1x64) broadcasts_S1x64_S1000x64 (ix2 r o) = b (ix1 o) := by
  rw [broadcastTo_1b_ab_apply, shapeCast_a_1a_apply]

/-- What the body stores at row `r` and column `o` of its block: the larger of zero and the row of the first block
    against the column of the weights, plus the bias. -/
theorem payload_apply (x : Vec Ideal S1000x256 .f32) (w : Vec Ideal S256x64 .bf16) (b : Vec Ideal S64 .f32)
    (r : Fin 1000) (o : Fin 64) :
    k1_pay1 (F := Ideal) x w b (ix2 r o)
      = max ((∑ k : Fin 256, x (ix2 r k) * w (ix2 k o)) + b (ix1 o)) (FloatOps.ofBits (F := Ideal) .f32 0x00000000#32) := by
  unfold k1_pay1
  rw [maximumf_apply, addf_apply, product_apply, bias_apply, broadcast_apply]
  simp only [shapeCast_self, truncf_apply]

/-! ## One block of the output, as a block of the projection -/

/-- The body's block at its entry `j` is the projection at the array's entry `i`, when `i` is `j` moved down by `T`
    blocks of 1000 rows, the first operand's block is the same rows of the array `A`, and the other two operands are
    the whole arrays `W` and `B`. -/
theorem block_apply (x : Vec Ideal S1000x256 .f32) (w : Vec Ideal S256x64 .bf16) (b : Vec Ideal S64 .f32)
    (A : FVec Ideal S50000x256 .f32) (W : FVec Ideal S256x64 .bf16) (B : FVec Ideal S64 .f32)
    (j : S1000x64.Idx) (i : S50000x64.Idx) (T : Nat)
    (hi0 : (i 0).val = T * 1000 + (j 0).val) (hi1 : (i 1).val = (j 1).val)
    (hx : ∀ (r : Fin 1000) (k : Fin 256) (n : Fin 50000), n.val = T * 1000 + r.val → x (ix2 r k) = A (ix2 n k))
    (hw : w = W) (hb : b = B) :
    k1_pay1 (F := Ideal) x w b j = Spec.projection A W B i := by
  obtain ⟨r, o, rfl⟩ : ∃ (r : Fin 1000) (o : Fin 64), j = ix2 r o := ⟨j 0, j 1, eq_ix2 j⟩
  obtain ⟨n, o', rfl⟩ : ∃ (n : Fin 50000) (o' : Fin 64), i = ix2 n o' := ⟨i 0, i 1, eq_ix2 i⟩
  obtain rfl : o' = o := Fin.ext hi1
  subst hw hb
  have hs : ∀ k : Fin 256, x (ix2 r k) = A (ix2 n k) := fun k => hx r k n hi0
  rw [payload_apply, Spec.projection_apply]
  unfold Spec.projAt
  simp only [hs]

theorem zero2 : (![0, 0] : Fin 2 → Nat) = fun _ => 0 := funext fun a => by
  match a with
  | ⟨0, _⟩ => rfl
  | ⟨1, _⟩ => rfl
theorem zero1 : (![0] : Fin 1 → Nat) = fun _ => 0 := funext fun a => by
  match a with
  | ⟨0, _⟩ => rfl

/-- The windows' block indices at grid point `t`: the first operand and the output move down one block of rows per
    point; the weights and the bias stay at block zero. -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What grid point `t` writes back is block `t` of the projection of the arrays the region read. -/
theorem flushed_eq (c : Dev nD) (t : Fin cfg1.N) :
    (dat1 (F := Ideal) V c).flushed 3 t
      = ((cfg1.win 3).blk t).view.read (Elt Ideal) (Spec.projection (V c main_v54) (V c main_v56) (V c main_arg5)) := by
  show (cfg1.win 3).cut (grid1.coords t) ((dat1 (F := Ideal) V c).after 3 t) = _
  rw [after1_3]
  unfold out1_3
  rw [View.canon_unit_zero zero2]
  simp only [View.ld_unit_zero (S := S1000x256) zero2, View.ld_unit_zero (S := S256x64) zero2, View.ld_unit_zero (S := S64) zero1]
  obtain ⟨e00, e01, e10, e11, e20, e30, e31⟩ := block_indices t
  funext j
  refine block_apply _ _ _ _ _ _ j _ t.val ?_ ?_ ?_ ?_ ?_
  · show win1_3.index t (0 : Fin 2) * 1000 + 1 * (j 0).val = t.val * 1000 + (j 0).val
    rw [e30]; omega
  · show win1_3.index t (1 : Fin 2) * 64 + 1 * (j 1).val = (j 1).val
    rw [e31]; omega
  · intro r k n hn
    show V c main_v54 (((cfg1.win 0).blk t).view.emb (ix2 r k)) = V c main_v54 (ix2 n k)
    refine congrArg (V c main_v54) (funext fun a => Fin.ext ?_)
    match a with
    | ⟨0, _⟩ => show win1_0.index t (0 : Fin 2) * 1000 + 1 * r.val = n.val; rw [e00]; omega
    | ⟨1, _⟩ => show win1_0.index t (1 : Fin 2) * 256 + 1 * k.val = k.val; rw [e01]; omega
  · funext y
    show V c main_v56 (((cfg1.win 1).blk t).view.emb y) = V c main_v56 y
    refine congrArg (V c main_v56) (funext fun a => Fin.ext ?_)
    match a with
    | ⟨0, _⟩ => show win1_1.index t (0 : Fin 2) * 256 + 1 * (y 0).val = (y 0).val; rw [e10]; omega
    | ⟨1, _⟩ => show win1_1.index t (1 : Fin 2) * 64 + 1 * (y 1).val = (y 1).val; rw [e11]; omega
  · funext y
    show V c main_arg5 (((cfg1.win 2).blk t).view.emb y) = V c main_arg5 y
    refine congrArg (V c main_arg5) (funext fun a => Fin.ext ?_)
    match a with
    | ⟨0, _⟩ => show win1_2.index t (0 : Fin 1) * 64 + 1 * (y 0).val = (y 0).val; rw [e20]; omega

/-- An entry of the array is in point `t`'s block iff each of its coordinates is in the block's range on its axis. -/
theorem mem_block (t : Fin cfg1.N) (i : S50000x64.Idx) :
    i ∈ ((cfg1.win 3).blk t).view.set ↔ ∀ a : Fin 2, win1_3.index t a * S1000x64.size a ≤ (i a).val ∧ (i a).val < win1_3.index t a * S1000x64.size a + S1000x64.size a := by
  show i ∈ ((View.whole main_v57).slice (win1_3.rect t)).set ↔ _
  rw [View.set_slice_whole, Rect.mem_set_unit]
  exact Iff.rfl

/-- Every entry of the array is in some point's block: row `n` is in the block of point `n / 1000`. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 50 := by decide
  let t : Fin cfg1.N := ⟨(i 0).val / 1000, by show (i 0).val / 1000 < grid1.N; rw [hN]; omega⟩
  obtain ⟨-, -, -, -, -, e30, e31⟩ := block_indices t
  have ht : t.val = (i 0).val / 1000 := rfl
  refine ⟨t, flush1_3 t, ?_⟩
  rw [mem_block]
  intro a
  match a with
  | ⟨0, _⟩ => show win1_3.index t (0 : Fin 2) * 1000 ≤ (i 0).val ∧ (i 0).val < win1_3.index t (0 : Fin 2) * 1000 + 1000; rw [e30, ht]; omega
  | ⟨1, _⟩ => show win1_3.index t (1 : Fin 2) * 64 ≤ (i 1).val ∧ (i 1).val < win1_3.index t (1 : Fin 2) * 64 + 64; rw [e31]; omega

/-- After the region's 50 grid points the output array holds relu (A·W + b) of the arrays the region read. -/
theorem final (c : Dev nD) :
    (dat1 (F := Ideal) V c).arrAt 3 cfg1.N
      = Spec.projection (V c main_v54) (V c main_v56) (V c main_arg5) :=
  (dat1 (F := Ideal) V c).arrAt_eq_of_cover 3 (Spec.projection (V c main_v54) (V c main_v56) (V c main_arg5))
    (fun t _ => flushed_eq V c t) cover

end Cert.KernelIdeal.ProjectionArray

end
-- ==== Proof.HostValues.lean ====
/-
  What the buffers the two kernel regions read hold when each region is entered, as functions of the program's
  arguments: the host operations before the first region (edge endpoints, degree norms, the gathered node features
  with the norm appended as a 65th column, the two transposed halves of the gate weight) and between the regions
  (the messages regrouped per head, summed into their target nodes, regrouped again; the transposed output weight).
  The stages shared with the reference program are named by the reference's own stage functions, so that the
  gathers and the scatter-add are never opened.
-/
import proofs.«160312_j13048110645522_1_alg».proof.Proof.Gen.KernelIdeal.Frame
import proofs.«160312_j13048110645522_1_alg».proof.Proof.Gen.ReferenceIdeal.Read
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## Between the regions -/

/-- The second region's first input: the first region's output regrouped as [edge, head, feature], summed into the
    rows of the edges' targets, regrouped as [node, head·64 + feature]. -/
theorem entry1_agg (c : Dev nD) : W5 m ρ c (Proc.devRef .tc main_v54) =
    shapeCast _ (Host.scatterAdd scatter_S50000x4x64_S800000x1_S800000x4x64_12_0_0_1
      (broadcastInDim S50000x4x64 ![] bcast_S_S50000x4x64 (constant S_ .f32 0x00000000#32))
      (broadcastInDim S800000x1 ![0] bcast_S800000_S800000x1_0 (W4 m ρ c (Proc.devRef .tc main_v3)))
      (shapeCast _ (W4 m ρ c (Proc.devRef .tc main_v49)) shapeCasts_S800000x256_S800000x4x64)) shapeCasts_S50000x4x64_S50000x256 := by
  show StableHlo.after hostOps1 (W4 m ρ c) (Proc.devRef .tc main_v54) = _
  after_results
  rfl

/-- The second region's weight: the output weight transposed. -/
theorem entry1_weight (c : Dev nD) : W5 m ρ c (Proc.devRef .tc main_v56) =
    truncf .bf16 (transpose S256x64 [1, 0] (W4 m ρ c (Proc.devRef .tc main_arg4)) transposes_S64x256_S256x64_1_0) bitsLt_bf16_f32 := by
  show StableHlo.after hostOps1 (W4 m ρ c) (Proc.devRef .tc main_v56) = _
  after_results

/-- The second region's bias is the argument. -/
theorem entry1_bias (c : Dev nD) : W5 m ρ c (Proc.devRef .tc main_arg5) = W4 m ρ c (Proc.devRef .tc main_arg5) := by
  show StableHlo.after hostOps1 (W4 m ρ c) (Proc.devRef .tc main_arg5) = _
  after_results

/-! ## Before the first region -/

set_option maxHeartbeats 4000000 in
/-- Source features with the source's degree norm as column 64. -/
theorem entry0_src (c : Dev nD) : W3 m ρ c (Proc.devRef .tc main_v40) =
    concatenate S800000x65 1 [⟨S800000x64, Cert.ReferenceIdeal.Read.val_main_v17 (F := F) (m ((c : Thread nD τ).loc main_arg0)) (m ((c : Thread nD τ).loc main_arg1))⟩,
      ⟨S800000x1, broadcastInDim S800000x1 ![0] bcast_S800000_S800000x1_0 (Cert.ReferenceIdeal.Read.val_main_v42 (F := F) (m ((c : Thread nD τ).loc main_arg1)))⟩] concatenates_S800000x64_S800000x1_S800000x65_d1 := by
  show StableHlo.after hostOps0_2 (StableHlo.after hostOps0_1 (StableHlo.after hostOps0 (W0 m ρ c))) (Proc.devRef .tc main_v40) = _
  after_results_simp
  refine congrArg₂ (fun a b => concatenate S800000x65 1 [⟨S800000x64, a⟩, ⟨S800000x1, b⟩] concatenates_S800000x64_S800000x1_S800000x65_d1) ?_ ?_
  · after_results_simp; rfl
  · after_results_simp; rfl

set_option maxHeartbeats 4000000 in
/-- Target features with the target's degree norm as column 64. -/
theorem entry0_tgt (c : Dev nD) : W3 m ρ c (Proc.devRef .tc main_v42) =
    concatenate S800000x65 1 [⟨S800000x64, Cert.ReferenceIdeal.Read.val_main_v24 (F := F) (m ((c : Thread nD τ).loc main_arg0)) (m ((c : Thread nD τ).loc main_arg1))⟩,
      ⟨S800000x1, broadcastInDim S800000x1 ![0] bcast_S800000_S800000x1_0 (Cert.ReferenceIdeal.Read.val_main_v49 (F := F) (m ((c : Thread nD τ).loc main_arg1)))⟩] concatenates_S800000x64_S800000x1_S800000x65_d1 := by
  show StableHlo.after hostOps0_2 (StableHlo.after hostOps0_1 (StableHlo.after hostOps0 (W0 m ρ c))) (Proc.devRef .tc main_v42) = _
  after_results_simp
  refine congrArg₂ (fun a b => concatenate S800000x65 1 [⟨S800000x64, a⟩, ⟨S800000x1, b⟩] concatenates_S800000x64_S800000x1_S800000x65_d1) ?_ ?_
  · after_results_simp; rfl
  · after_results_simp; rfl

set_option maxHeartbeats 4000000 in
/-- The source half of the gate weight, transposed. -/
theorem entry0_w1 (c : Dev nD) : W3 m ρ c (Proc.devRef .tc main_v45) =
    truncf .bf16 (Cert.ReferenceIdeal.Read.val_main_v27 (F := F) (m ((c : Thread nD τ).loc main_arg2))) bitsLt_bf16_f32 := by
  show StableHlo.after hostOps0_2 (StableHlo.after hostOps0_1 (StableHlo.after hostOps0 (W0 m ρ c))) (Proc.devRef .tc main_v45) = _
  after_results_simp
  rfl

set_option maxHeartbeats 4000000 in
/-- The target half of the gate weight, transposed. -/
theorem entry0_w2 (c : Dev nD) : W3 m ρ c (Proc.devRef .tc main_v48) =
    truncf .bf16 (Cert.ReferenceIdeal.Read.val_main_v29 (F := F) (m ((c : Thread nD τ).loc main_arg2))) bitsLt_bf16_f32 := by
  show StableHlo.after hostOps0_2 (StableHlo.after hostOps0_1 (StableHlo.after hostOps0 (W0 m ρ c))) (Proc.devRef .tc main_v48) = _
  after_results_simp
  rfl

set_option maxHeartbeats 4000000 in
/-- The gate bias is the argument. -/
theorem entry0_bias (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp

set_option maxHeartbeats 4000000 in
/-- The edges' targets. -/
theorem entry0_col (c : Dev nD) : W3 m ρ c (Proc.devRef .tc main_v3) = Cert.ReferenceIdeal.Read.val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
theorem entry0_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp

set_option maxHeartbeats 4000000 in
theorem entry0_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp

/-! ## Across the first region: what it does not write stays -/

theorem across0_col (c : Dev nD) : W4 m ρ c (Proc.devRef .tc main_v3) = W3 m ρ c (Proc.devRef .tc main_v3) :=
  W4_of_ne m ρ c main_v3 (by decide)
theorem across0_arg4 (c : Dev nD) : W4 m ρ c (Proc.devRef .tc main_arg4) = W3 m ρ c (Proc.devRef .tc main_arg4) :=
  W4_of_ne m ρ c main_arg4 (by decide)
theorem across0_arg5 (c : Dev nD) : W4 m ρ c (Proc.devRef .tc main_arg5) = W3 m ρ c (Proc.devRef .tc main_arg5) :=
  W4_of_ne m ρ c main_arg5 (by decide)

end Cert.KernelIdeal.HostValues

end
-- ==== Proof.Bridge.lean ====
/-
  The two places where the kernel program and the reference compute the same numbers by different arrangements.

  The messages. The kernel reads the source's features and degree norm from ONE 65-column array (features in
  columns 0 … 63, the norm in column 64) and stores the [edge, head, feature] messages as rows of 256; the reference
  keeps features and norms apart and forms the same product by broadcasts. Entry by entry both are
      tanh (Σ_k hr[e,k]·w1[h,k] + Σ_k hc[e,k]·w2[h,k] + b[h]) · (nd[row e]·nd[col e]) · hr[e,d]:
  the same sums over the same index set, the same grouping of the additions and of the products, so no law of the
  extended reals beyond reading the arrangements at an index is used.

  The projection. Both are max (Σ_k agg[n,k]·W[o,k] + b[o], 0), the kernel's matrix product and the host's
  contraction being the same finite sum.
-/
import proofs.«160312_j13048110645522_1_alg».proof.Proof.Spec
import proofs.«160312_j13048110645522_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Bridge

open Idealize.ShloMosaic Idealize.ShloMosaic.ValueIdx
open Cert.ReferenceIdeal Cert.ReferenceIdeal.Read
open Cert.KernelIdeal (Spec.col Spec.normCol Spec.msgAt Spec.messages Spec.projAt Spec.projection)

/-! ## The 65-column array read at a feature column and at the norm column -/

variable {α : Type}
/- The shape facts the printed programs state, taken here as hypotheses: the statements below hold for any proofs of them. -/
variable (hbc : Cert.KernelIdeal.S800000.BroadcastsInDim Cert.KernelIdeal.S800000x1 (![0] : Fin 1 → Fin Cert.KernelIdeal.S800000x1.rank))
  (hcat : Shape.Concatenates [Cert.KernelIdeal.S800000x64, Cert.KernelIdeal.S800000x1] Cert.KernelIdeal.S800000x65 1)
  (hsc : Cert.KernelIdeal.S800000x256.ShapeCasts Cert.KernelIdeal.S800000x4x64)
  (hlt : FTy.bits .bf16 < FTy.bits .f32)

/-- A feature column of the 65-column array is the feature array's. -/
theorem edge_feat (H : Cert.KernelIdeal.S800000x64.Idx → α) (N : Cert.KernelIdeal.S800000.Idx → α) (e : Fin 800000) (k : Fin 64) :
    (concatenate Cert.KernelIdeal.S800000x65 1 [⟨Cert.KernelIdeal.S800000x64, H⟩, ⟨Cert.KernelIdeal.S800000x1, broadcastInDim Cert.KernelIdeal.S800000x1 ![0] hbc N⟩] hcat) (ix2 e (Cert.KernelIdeal.Spec.col k)) = H (ix2 e k) :=
  concatenate_pair_apply_left (t := Cert.KernelIdeal.S800000x65) (s₁ := Cert.KernelIdeal.S800000x64) (s₂ := Cert.KernelIdeal.S800000x1) (1 : Fin 2) H _ hcat (ix2 e (Cert.KernelIdeal.Spec.col k)) rfl (ix2 e k)
    (fun b => match b with | ⟨0, _⟩ => rfl | ⟨1, _⟩ => rfl)

/-- Column 64 of the 65-column array is the norm of the row. -/
theorem edge_norm (H : Cert.KernelIdeal.S800000x64.Idx → α) (N : Cert.KernelIdeal.S800000.Idx → α) (e : Fin 800000) :
    (concatenate Cert.KernelIdeal.S800000x65 1 [⟨Cert.KernelIdeal.S800000x64, H⟩, ⟨Cert.KernelIdeal.S800000x1, broadcastInDim Cert.KernelIdeal.S800000x1 ![0] hbc N⟩] hcat) (ix2 e Cert.KernelIdeal.Spec.normCol) = N (ix1 e) := by
  refine (concatenate_pair_apply_right (t := Cert.KernelIdeal.S800000x65) (s₁ := Cert.KernelIdeal.S800000x64) (s₂ := Cert.KernelIdeal.S800000x1) (1 : Fin 2) H _ hcat (ix2 e Cert.KernelIdeal.Spec.normCol) rfl rfl
    (ix2 e (0 : Fin 1) : Cert.KernelIdeal.S800000x1.Idx) (fun b hb => match b, hb with | ⟨0, _⟩, _ => rfl | ⟨1, _⟩, hb => absurd rfl hb) rfl).trans ?_
  exact broadcastInDim_apply _ hbc N (ix2 e (0 : Fin 1) : Cert.KernelIdeal.S800000x1.Idx) (ix1 e) (fun a => match a with
    | ⟨0, _⟩ => by show e.val = if (800000 : Nat) = 1 then 0 else e.val; rw [if_neg (by decide)])

/-! ## The messages -/

theorem messages_eq (x0 : (⟨S50000x64, .f32⟩ : BufTy).Contents (Elt Ideal)) (x1 : (⟨S2x800000, .i32⟩ : BufTy).Contents (Elt Ideal))
    (x2 : (⟨S4x128, .f32⟩ : BufTy).Contents (Elt Ideal)) (x3 : (⟨S4, .f32⟩ : BufTy).Contents (Elt Ideal)) :
    shapeCast Cert.KernelIdeal.S800000x4x64 (Cert.KernelIdeal.Spec.messages
        (concatenate Cert.KernelIdeal.S800000x65 1 [⟨Cert.KernelIdeal.S800000x64, (val_main_v17 (F := Ideal) x0 x1)⟩, ⟨Cert.KernelIdeal.S800000x1, broadcastInDim Cert.KernelIdeal.S800000x1 ![0] hbc (val_main_v42 (F := Ideal) x1)⟩] hcat)
        (concatenate Cert.KernelIdeal.S800000x65 1 [⟨Cert.KernelIdeal.S800000x64, (val_main_v24 (F := Ideal) x0 x1)⟩, ⟨Cert.KernelIdeal.S800000x1, broadcastInDim Cert.KernelIdeal.S800000x1 ![0] hbc (val_main_v49 (F := Ideal) x1)⟩] hcat)
        (truncf .bf16 (val_main_v27 (F := Ideal) x2) hlt)
        (truncf .bf16 (val_main_v29 (F := Ideal) x2) hlt)
        x3) hsc
      = val_main_v58 (F := Ideal) x0 x1 x2 x3 := by
  funext i
  obtain ⟨e, h, d, rfl⟩ : ∃ (e : Fin 800000) (h : Fin 4) (d : Fin 64), i = ix3 e h d := ⟨i 0, i 1, i 2, eq_ix3 i⟩
  have hh := h.isLt
  have hd := d.isLt
  rw [shapeCast_apply _ hsc (ix3 e h d) (ix2 e (⟨h.val * 64 + d.val, by omega⟩ : Fin 256)) (by
    rw [Shape.rowMajor_val_two, Shape.rowMajor_val_three]
    show e.val * 256 + (h.val * 64 + d.val) = (e.val * 4 + h.val) * 64 + d.val
    omega)]
  rw [Cert.KernelIdeal.Spec.messages_apply _ _ _ _ _ e h d _ rfl]
  unfold Cert.KernelIdeal.Spec.msgAt
  simp only [edge_feat hbc hcat, edge_norm hbc hcat]
  rw [val_main_v58_apply, val_main_v56_apply, val_main_v54_apply, val_main_v53_apply, val_main_v35_apply, val_main_v34_apply,
    val_main_v31_apply, val_main_v28_apply, val_main_v30_apply, val_main_v33_apply, val_main_v32_apply, val_main_v52_apply,
    val_main_v51_apply, val_main_v50_apply, val_main_v57_apply, val_main_v55_apply]
  -- the reference's composed index functions at (e, h, d) are the coordinates themselves
  have iL1 : ∀ k : Fin 64, lidx_main_v28 (idx_main_v54 (idx_main_v56 (ix3 e h d))) k = ix2 e k := fun k => funext fun a => match a with | ⟨0, _⟩ => rfl | ⟨1, _⟩ => rfl
  have iR1 : ∀ k : Fin 64, ridx_main_v28 (idx_main_v54 (idx_main_v56 (ix3 e h d))) k = ix2 k h := fun k => funext fun a => match a with | ⟨0, _⟩ => rfl | ⟨1, _⟩ => rfl
  have iL2 : ∀ k : Fin 64, lidx_main_v30 (idx_main_v54 (idx_main_v56 (ix3 e h d))) k = ix2 e k := fun k => funext fun a => match a with | ⟨0, _⟩ => rfl | ⟨1, _⟩ => rfl
  have iR2 : ∀ k : Fin 64, ridx_main_v30 (idx_main_v54 (idx_main_v56 (ix3 e h d))) k = ix2 k h := fun k => funext fun a => match a with | ⟨0, _⟩ => rfl | ⟨1, _⟩ => rfl
  have iB : idx_main_v32 (idx_main_v33 (idx_main_v54 (idx_main_v56 (ix3 e h d)))) = ix1 h := funext fun a => match a with | ⟨0, _⟩ => rfl
  have iN : idx_main_v51 (idx_main_v52 (idx_main_v54 (idx_main_v56 (ix3 e h d)))) = ix1 e := funext fun a => match a with | ⟨0, _⟩ => rfl
  have iD : idx_main_v55 (idx_main_v57 (ix3 e h d)) = ix2 e d := funext fun a => match a with | ⟨0, _⟩ => rfl | ⟨1, _⟩ => rfl
  simp only [iL1, iR1, iL2, iR2, iB, iN, iD, truncf, Ideal.truncf_def, Ideal.mulf_def, Ideal.addf_def, Ideal.hostUnary_tanh_def]

/-! ## The projection -/

theorem projection_eq (x0 : (⟨S50000x64, .f32⟩ : BufTy).Contents (Elt Ideal)) (x1 : (⟨S2x800000, .i32⟩ : BufTy).Contents (Elt Ideal))
    (x2 : (⟨S4x128, .f32⟩ : BufTy).Contents (Elt Ideal)) (x3 : (⟨S4, .f32⟩ : BufTy).Contents (Elt Ideal))
    (x4 : (⟨S64x256, .f32⟩ : BufTy).Contents (Elt Ideal)) (x5 : (⟨S64, .f32⟩ : BufTy).Contents (Elt Ideal)) :
    Cert.KernelIdeal.Spec.projection (val_main_v62 (F := Ideal) x0 x1 x2 x3) (truncf .bf16 (val_main_v63 (F := Ideal) x4) hlt) x5
      = val_main_v68 (F := Ideal) x0 x1 x2 x3 x4 x5 := by
  funext i
  rw [val_main_v68_apply, val_main_v67_apply, val_main_v64_apply, val_main_v66_apply, val_main_v65_apply, val_main_call1_v0_apply,
    val_main_call1_cst_apply]
  show Cert.KernelIdeal.Spec.projAt _ _ _ ⟨(i 0).val, (i 0).isLt⟩ ⟨(i 1).val, (i 1).isLt⟩ = _
  unfold Cert.KernelIdeal.Spec.projAt
  have iL : ∀ k : Fin 256, lidx_main_v64 i k = ix2 (⟨(i 0).val, (i 0).isLt⟩ : Fin 50000) k := fun k => funext fun a => match a with | ⟨0, _⟩ => rfl | ⟨1, _⟩ => rfl
  have iR : ∀ k : Fin 256, ridx_main_v64 i k = ix2 k (⟨(i 1).val, (i 1).isLt⟩ : Fin 64) := fun k => funext fun a => match a with | ⟨0, _⟩ => rfl | ⟨1, _⟩ => rfl
  have iB : idx_main_v65 (idx_main_v66 i) = ix1 (⟨(i 1).val, (i 1).isLt⟩ : Fin 64) := funext fun a => match a with | ⟨0, _⟩ => rfl
  simp only [iL, iR, iB, truncf, Ideal.truncf_def, Ideal.maximumf_def, Ideal.addf_def]

end Cert.Bridge

end
-- ==== Proof.KernelValue.lean ====
/-
  The kernel program's result as a function of its arguments: the last region's output array, read back through
  the host operations between the regions, the first region's output array and the host operations before it, is the
  reference's last stage of the same arguments.
-/
import proofs.«160312_j13048110645522_1_alg».proof.Proof.HostValues
import proofs.«160312_j13048110645522_1_alg».proof.Proof.Bridge

set_option maxRecDepth 16384

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer after the run holds the reference's last stage of the arguments, given what each region's
    output array holds after the region (`hM`: the message array; `hP`: the projection) at any entry contents. -/
theorem result_eq
    (hM : ∀ (V : (c : Dev nD) → (b : Ref sig .tc) → Buf (Elt Ideal) ((c : Thread nD τ).loc b)) (c : Dev nD),
      (dat0 (F := Ideal) V c).arrAt 5 cfg0.N = Spec.messages (V c main_v40) (V c main_v42) (V c main_v45) (V c main_v48) (V c main_arg3))
    (hP : ∀ (V : (c : Dev nD) → (b : Ref sig .tc) → Buf (Elt Ideal) ((c : Thread nD τ).loc b)) (c : Dev nD),
      (dat1 (F := Ideal) V c).arrAt 3 cfg1.N = Spec.projection (V c main_v54) (V c main_v56) (V c main_arg5))
    (c : Dev nD) :
    W6 m ρ c (Proc.devRef .tc main_v57)
      = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have h1 : W6 m ρ c (Proc.devRef .tc main_v57) = (dat1 (V5 m ρ) c).arrAt 3 cfg1.N := W6_arr m ρ c 3
  rw [h1, hP (V5 m ρ) c]
  show Spec.projection (W5 m ρ c (Proc.devRef .tc main_v54)) (W5 m ρ c (Proc.devRef .tc main_v56)) (W5 m ρ c (Proc.devRef .tc main_arg5)) = _
  rw [HostValues.entry1_agg, HostValues.entry1_weight, HostValues.entry1_bias,
    HostValues.across0_col, HostValues.across0_arg4, HostValues.across0_arg5,
    HostValues.entry0_col, HostValues.entry0_arg4, HostValues.entry0_arg5]
  have h2 : W4 m ρ c (Proc.devRef .tc main_v49) = (dat0 (V3 m ρ) c).arrAt 5 cfg0.N := W4_arr m ρ c 5
  rw [h2, hM (V3 m ρ) c]
  show Spec.projection (shapeCast _ (Host.scatterAdd scatter_S50000x4x64_S800000x1_S800000x4x64_12_0_0_1 _ _
      (shapeCast _ (Spec.messages (W3 m ρ c (Proc.devRef .tc main_v40)) (W3 m ρ c (Proc.devRef .tc main_v42))
        (W3 m ρ c (Proc.devRef .tc main_v45)) (W3 m ρ c (Proc.devRef .tc main_v48)) (W3 m ρ c (Proc.devRef .tc main_arg3))) _)) _) _ _ = _
  rw [HostValues.entry0_src, HostValues.entry0_tgt, HostValues.entry0_w1, HostValues.entry0_w2, HostValues.entry0_bias]
  rw [Cert.Bridge.messages_eq Gen.bcast_S800000_S800000x1_0 Gen.concatenates_S800000x64_S800000x1_S800000x65_d1 Gen.shapeCasts_S800000x256_S800000x4x64 Gen.bitsLt_bf16_f32]
  exact Cert.Bridge.projection_eq Gen.bitsLt_bf16_f32 _ _ _ _ _ _

end Cert.KernelIdeal.KernelValue

end
-- ==== Proof.lean ====
/-
  A graph layer with per-head gated messages, computed two ways, is one function of its inputs over the extended reals.

  Both programs take node features h [50000, 64], edges (row, col) [2, 800000], a gate weight [4, 128] and bias [4],
  an output weight [64, 256] and bias [64]. With nd = max(deg, 1)^(-1/2), deg the number of edges leaving a node, the
  message of edge e for head t and feature d is
      tanh (Σ_k h[row e, k]·gw[t, k] + Σ_k h[col e, k]·gw[t, 64 + k] + gb[t]) · (nd[row e]·nd[col e]) · h[row e, d];
  messages are summed into the rows of their targets col e, and the result is relu (agg·Wᵀ + b).

  The kernel program appends the norm to the gathered features as a 65th column, computes the 256 message entries of
  3200 edges per grid point in a first region, sums them into their targets on the host, and computes 1000 rows of the
  projection per grid point in a second region; its matrix operands pass through a narrower float format, which is the
  identity on the extended reals. The reference does all of it with whole-array host operations. The degree count, the
  four gathers and the scatter-add are the same operations of the same arguments in both programs and are never opened;
  what is compared entry by entry is the message tensor (Bridge.messages_eq) and the projection (Bridge.projection_eq):
  the same finite sums with the same grouping of additions and products, so the inputs' finiteness is not used.

  Frames: the two kernel programs' are the generated frame certificates; the reference's is its generated run with the
  result dropped. The idealization rewrote no operation, so there is nothing to preserve.
-/
import proofs.«160312_j13048110645522_1_alg».proof.Defs
import proofs.«160312_j13048110645522_1_alg».proof.Proof.Gen.Kernel
import proofs.«160312_j13048110645522_1_alg».proof.Proof.Gen.Kernel.Frame
import proofs.«160312_j13048110645522_1_alg».proof.Proof.Gen.KernelIdeal
import proofs.«160312_j13048110645522_1_alg».proof.Proof.Gen.KernelIdeal.Frame
import proofs.«160312_j13048110645522_1_alg».proof.Proof.Gen.ReferenceIdeal
import proofs.«160312_j13048110645522_1_alg».proof.Proof.Gen.Pre_finite_inputs
import proofs.«160312_j13048110645522_1_alg».proof.Proof.RefStages
import proofs.«160312_j13048110645522_1_alg».proof.Proof.KernelRun
import proofs.«160312_j13048110645522_1_alg».proof.Proof.MessageArray
import proofs.«160312_j13048110645522_1_alg».proof.Proof.ProjectionArray
import proofs.«160312_j13048110645522_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel program is the kernel program's own text read over the extended reals. -/
theorem preserves : Cert.preserves_Kernel_KernelIdeal := trivial

/-- Both programs end with the result at the reference's last stage of the (agreeing) arguments. -/
theorem algebraic : Cert.algebraic_KernelIdeal_ReferenceIdeal := by
  intro m ρ m' ρ' _ hagree
  refine ⟨fun c => Cert.ReferenceIdeal.Read.val_main_v68 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ
          Cert.KernelIdeal.MessageArray.final Cert.KernelIdeal.ProjectionArray.final c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v68_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
